-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x32x32 : Shape := ⟨4, ![256, 128, 32, 32]⟩
abbrev S8x8 : Shape := ⟨2, ![8, 8]⟩
abbrev S8 : Shape := ⟨1, ![8]⟩
abbrev S_ : Shape := ⟨0, ![]⟩

class Facts : Prop where
  bcast_S_S256x128x32x32 : S_.BroadcastsInDim S256x128x32x32 (![] : Fin 0 → Fin S256x128x32x32.rank)
  reducesTo_S256x128x32x32_S_d0_1_2_3 : S256x128x32x32.ReducesTo [0, 1, 2, 3] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S256x128x32x32 .f32) (main_arg1 : FVec F S8x8 .f32) (main_arg2 : FVec F S8 .f32) : IVec S_ 1 :=
  let main_v0 : FVec F S256x128x32x32 .f32 := Host.absf main_arg0
  let main_cst : FVec F S_ .f32 := constant S_ .f32 0x7F800000#32
  let main_v1 : FVec F S256x128x32x32 .f32 := broadcastInDim S256x128x32x32 ![] bcast_S_S256x128x32x32 main_cst
  let main_v2 : IVec S256x128x32x32 1 := cmpf .olt main_v0 main_v1
  let main_c : IVec S_ 1 := constantI S_ 1 1#1
  let main_v3 : IVec S_ 1 := (fun x v => Host.reduce IntOp.andi x v reducesTo_S256x128x32x32_S_d0_1_2_3 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S256x128x32x32 : Shape := ⟨4, ![256, 128, 32, 32]⟩
abbrev S8x8 : Shape := ⟨2, ![8, 8]⟩
abbrev S8 : Shape := ⟨1, ![8]⟩
abbrev S262144x128 : Shape := ⟨2, ![262144, 128]⟩
abbrev S16x16 : Shape := ⟨2, ![16, 16]⟩
abbrev S_ : Shape := ⟨0, ![]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128x128 : Shape := ⟨2, ![128, 128]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S16384x128 : Shape := ⟨2, ![16384, 128]⟩

abbrev nBuf : Space → Nat
  | .hbm => 24
  | .vmem => 6
  | .smem => 0
  | _ => 0

abbrev bufTy : (tb : Table) → Fin (tcTables nBuf tb) → BufTy
  | .hbm, ⟨0, _⟩ => ⟨S256x128x32x32, .f32⟩
  | .hbm, ⟨1, _⟩ => ⟨S8x8, .f32⟩
  | .hbm, ⟨2, _⟩ => ⟨S8, .f32⟩
  | .hbm, ⟨3, _⟩ => ⟨S262144x128, .f32⟩
  | .hbm, ⟨4, _⟩ => ⟨S16x16, .i32⟩
  | .hbm, ⟨5, _⟩ => ⟨S16x16, .i32⟩
  | .hbm, ⟨6, _⟩ => ⟨S_, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S16x16, .f32⟩
  | .hbm, ⟨11, _⟩ => ⟨S8x8, .f32⟩
  | .hbm, ⟨12, _⟩ => ⟨S16x1x16x1, .f32⟩
  | .hbm, ⟨13, _⟩ => ⟨S1x8x1x8, .f32⟩
  | .hbm, ⟨14, _⟩ => ⟨S16x8x16x8, .f32⟩
  | .hbm, ⟨15, _⟩ => ⟨S16x8x16x8, .f32⟩
  | .hbm, ⟨16, _⟩ => ⟨S16x8x16x8, .f32⟩
  | .hbm, ⟨17, _⟩ => ⟨S128x128, .f32⟩
  | .hbm, ⟨18, _⟩ => ⟨S1x8, .f32⟩
  | .hbm, ⟨19, _⟩ => ⟨S16x8, .f32⟩
  | .hbm, ⟨20, _⟩ => ⟨S128, .f32⟩
  | .hbm, ⟨21, _⟩ => ⟨S1x128, .f32⟩
  | .hbm, ⟨22, _⟩ => ⟨S262144x128, .f32⟩
  | .hbm, ⟨23, _⟩ => ⟨S256x128x32x32, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S16384x128, .f32⟩
  | .local _ .vmem, ⟨5, _⟩ => ⟨S16384x128, .f32⟩
  | _, _ => ⟨S256x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x128x32x32_S262144x128 : S256x128x32x32.ShapeCasts S262144x128
  bcast_S_S16x16 : S_.BroadcastsInDim S16x16 (![] : Fin 0 → Fin S16x16.rank)
  transposes_S8x8_S8x8_1_0 : S8x8.Transposes [1, 0] S8x8
  bcast_S16x16_S16x1x16x1_0_2 : S16x16.BroadcastsInDim S16x1x16x1 (![0, 2] : Fin 2 → Fin S16x1x16x1.rank)
  bcast_S8x8_S1x8x1x8_1_3 : S8x8.BroadcastsInDim S1x8x1x8 (![1, 3] : Fin 2 → Fin S1x8x1x8.rank)
  bcast_S16x1x16x1_S16x8x16x8_0_1_2_3 : S16x1x16x1.BroadcastsInDim S16x8x16x8 (![0, 1, 2, 3] : Fin 4 → Fin S16x8x16x8.rank)
  bcast_S1x8x1x8_S16x8x16x8_0_1_2_3 : S1x8x1x8.BroadcastsInDim S16x8x16x8 (![0, 1, 2, 3] : Fin 4 → Fin S16x8x16x8.rank)
  shapeCasts_S16x8x16x8_S128x128 : S16x8x16x8.ShapeCasts S128x128
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S1x128 : S128.ShapeCasts S1x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  shapeCasts_S262144x128_S256x128x32x32 : S262144x128.ShapeCasts S256x128x32x32
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S262144x128.size a
  hwx0_3 : ∀ i : grid0.Coords, EltTy.bits .f32 = 32 ∨ (Rect.block (s := S262144x128) S16384x128.size (cc0_transform_3 i) (hinb0_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128x32x32 : Shape := ⟨4, ![256, 128, 32, 32]⟩
abbrev S8x8 : Shape := ⟨2, ![8, 8]⟩
abbrev S8 : Shape := ⟨1, ![8]⟩
abbrev S256x128x32x4x8 : Shape := ⟨5, ![256, 128, 32, 4, 8]⟩
abbrev S1x1x1x1x8 : Shape := ⟨5, ![1, 1, 1, 1, 8]⟩

abbrev nBuf : Space → Nat
  | .hbm => 9
  | .vmem => 0
  | .smem => 0
  | _ => 0

abbrev bufTy : (tb : Table) → Fin (tcTables nBuf tb) → BufTy
  | .hbm, ⟨0, _⟩ => ⟨S256x128x32x32, .f32⟩
  | .hbm, ⟨1, _⟩ => ⟨S8x8, .f32⟩
  | .hbm, ⟨2, _⟩ => ⟨S8, .f32⟩
  | .hbm, ⟨3, _⟩ => ⟨S256x128x32x4x8, .f32⟩
  | .hbm, ⟨4, _⟩ => ⟨S256x128x32x4x8, .f32⟩
  | .hbm, ⟨5, _⟩ => ⟨S1x1x1x1x8, .f32⟩
  | .hbm, ⟨6, _⟩ => ⟨S256x128x32x4x8, .f32⟩
  | .hbm, ⟨7, _⟩ => ⟨S256x128x32x4x8, .f32⟩
  | .hbm, ⟨8, _⟩ => ⟨S256x128x32x32, .f32⟩
  | _, _ => ⟨S256x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S256x128x32x32_S256x128x32x4x8 : S256x128x32x32.ShapeCasts S256x128x32x4x8
  bcast_S8_S1x1x1x1x8_4 : S8.BroadcastsInDim S1x1x1x1x8 (![4] : Fin 1 → Fin S1x1x1x1x8.rank)
  bcast_S1x1x1x1x8_S256x128x32x4x8_0_1_2_3_4 : S1x1x1x1x8.BroadcastsInDim S256x128x32x4x8 (![0, 1, 2, 3, 4] : Fin 5 → Fin S256x128x32x4x8.rank)
  shapeCasts_S256x128x32x4x8_S256x128x32x32 : S256x128x32x4x8.ShapeCasts S256x128x32x32
  dot_S256x128x32x4x8_S8x8_S256x128x32x4x8_4_1_0123_0_n_n_wf : DotDims.WF S256x128x32x4x8 S8x8 S256x128x32x4x8 [4] [1] [0, 1, 2, 3] [0] [] []

variable [Facts₀]

def dot_S256x128x32x4x8_S8x8_S256x128x32x4x8_4_1_0123_0_n_n : DotDims S256x128x32x4x8 S8x8 S256x128x32x4x8 where
  lhsContracting := [4]
  rhsContracting := [1]
  lhsNonContracting := [0, 1, 2, 3]
  rhsNonContracting := [0]
  lhsBatch := []
  rhsBatch := []
  wf := dot_S256x128x32x4x8_S8x8_S256x128x32x4x8_4_1_0123_0_n_n_wf

class Facts : Prop extends Facts₀ where

variable [Facts]
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Payload.lean ====
/-
  The kernel body's one stored value, read at an entry.

  The body loads a 16384×128 block X of the flattened input, the 128×128 matrix M and the 1×128 row r, and stores
  X·M + r (the row broadcast down the rows). At the ideal values the product into the zero accumulator is the exact
  128-term sum, so entry (a, b) of the stored block is Σ_c X(a, c) · M(c, b) + r(0, b).
-/
import proofs.«166391_j15616501088522_1_alg».proof.Proof.Gen.KernelIdeal.Skeleton
import proofs.«166391_j15616501088522_1_alg».proof.Proof.LibMatmulPlain
import Idealize.ShloMosaic.Lib.Pipeline.Value
import Idealize.ShloMosaic.Lib.ValueIdx

noncomputable section

open scoped BigOperators
open Idealize.ShloMosaic Idealize.ShloMosaic.ValueIdx

namespace Cert.KernelIdeal.Payload

open Cert.KernelIdeal Cert.KernelIdeal.Gen

/-- Entry (a, b) of the block the body stores: the a-th row of X against the b-th column of M, plus the row's b-th
    entry. -/
theorem pay_apply (x0 : Vec Ideal S16384x128 .f32) (x1 : Vec Ideal S128x128 .f32) (x2 : Vec Ideal S1x128 .f32)
    (a : Fin 16384) (b : Fin 128) :
    k0_pay1 (F := Ideal) x0 x1 x2 (ix2 a b) = (∑ c : Fin 128, x0 (ix2 a c) * x1 (ix2 c b)) + x2 (ix2 0 b) := by
  unfold k0_pay1
  simp only [shapeCast_self]
  refine (addf_apply _ _ (ix2 a b)).trans ?_
  refine congrArg₂ (· + ·) ?_ ?_
  · exact Cert.LibMatmulPlain.matmul_plain_zero_apply none x0 x1 a b
  · exact Cert.LibMatmulPlain.rowBroadcast_apply x2 broadcasts_S1x128_S16384x128 a b

end Cert.KernelIdeal.Payload

end
-- ==== Proof.FlatIndex.lean ====
/-
  The flat (row-major) position of an index of the 256×128×32×32 array, and the result both programs compute,
  written over it.

  Position n = ((b·128 + c)·32 + h)·32 + w. The transform acts on groups of 8 consecutive positions: position n
  belongs to the group starting at 8·(n / 8) and is entry n % 8 of it. The result at position n is
      Σ_{k < 8} x[8·(n / 8) + k] · weight[n % 8, k] + bias[n % 8].
-/
import Idealize.ShloMosaic.PureOps.Ideal.Laws
import Idealize.ShloMosaic.Lib.ValueIdx

noncomputable section

open scoped BigOperators
open Idealize.ShloMosaic Idealize.ShloMosaic.ValueIdx

namespace Cert.FlatIndex

abbrev S4 : Shape := ⟨4, ![256, 128, 32, 32]⟩
abbrev SW : Shape := ⟨2, ![8, 8]⟩
abbrev SB : Shape := ⟨1, ![8]⟩

/-- The row-major position of an index. -/
def flat4 (i : S4.Idx) : Nat := (((i 0).val * 128 + (i 1).val) * 32 + (i 2).val) * 32 + (i 3).val

theorem flat4_lt (i : S4.Idx) : flat4 i < 33554432 := by
  have h0 : (i 0).val < 256 := (i 0).isLt
  have h1 : (i 1).val < 128 := (i 1).isLt
  have h2 : (i 2).val < 32 := (i 2).isLt
  have h3 : (i 3).val < 32 := (i 3).isLt
  unfold flat4
  omega

theorem rowMajor_eq_flat4 (i : S4.Idx) : (S4.rowMajor i).val = flat4 i := by
  rw [Shape.rowMajor_val_four]; rfl

/-- The index at a row-major position. -/
def at4 (n : Nat) (h : n < 33554432) : S4.Idx :=
  ix4 (⟨n / 131072, by omega⟩ : Fin 256) (⟨n / 1024 % 128, by omega⟩ : Fin 128) (⟨n / 32 % 32, by omega⟩ : Fin 32)
    (⟨n % 32, by omega⟩ : Fin 32)

theorem flat4_at4 (n : Nat) (h : n < 33554432) : flat4 (at4 n h) = n := by
  show ((n / 131072 * 128 + n / 1024 % 128) * 32 + n / 32 % 32) * 32 + n % 32 = n
  omega

theorem rowMajor_at4 (n : Nat) (h : n < 33554432) : (S4.rowMajor (at4 n h)).val = n := by
  rw [rowMajor_eq_flat4, flat4_at4]

theorem at4_congr {n n' : Nat} (h : n < 33554432) (h' : n' < 33554432) (e : n = n') : at4 n h = at4 n' h' := by
  subst e; rfl

/-- Position `8·(n / 8) + k` stays inside the array. -/
theorem group_lt {n : Nat} (h : n < 33554432) (k : Fin 8) : 8 * (n / 8) + k.val < 33554432 := by
  have := k.isLt; omega

/-- What both programs compute: entry `n % 8` of the 8×8 weight applied to the group of 8 that holds position `n`,
    plus that entry of the bias. -/
def result (x : S4.Idx → EReal) (w : SW.Idx → EReal) (bias : SB.Idx → EReal) : S4.Idx → EReal := fun i =>
  (∑ k : Fin 8, x (at4 (8 * (flat4 i / 8) + k.val) (group_lt (flat4_lt i) k))
      * w (ix2 (⟨flat4 i % 8, Nat.mod_lt _ (by decide)⟩ : Fin 8) k))
    + bias (ix1 (⟨flat4 i % 8, Nat.mod_lt _ (by decide)⟩ : Fin 8))

end Cert.FlatIndex

end
-- ==== Proof.HostPrefix.lean ====
/-
  What the kernel's three operand arrays hold when the region is entered, as functions of the program's arguments.

  * The first operand is the input x re-laid as 262144 rows of 128: entry (r, c) is x at flat position 128·r + c.
  * The second is the Kronecker product of the 16×16 identity with the transposed 8×8 weight, re-laid as 128×128:
    entry (p, l) is [p / 8 = l / 8] · weight[l % 8, p % 8] — sixteen copies of the transposed weight on the diagonal.
  * The third is the bias tiled sixteen times as one row of 128: entry (0, l) is bias[l % 8].
-/
import proofs.«166391_j15616501088522_1_alg».proof.Proof.Gen.KernelIdeal.Frame
import proofs.«166391_j15616501088522_1_alg».proof.Proof.FlatIndex
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.ValueIdx

namespace Cert.KernelIdeal.HostPrefix

open Cert.KernelIdeal Cert.KernelIdeal.Gen Cert.FlatIndex

variable (m : (ℓ : Loc nD τ sig) → Buf (Elt Ideal) ℓ)

/-! ## The three operands as terms of the arguments -/

theorem v0_eq (c : Dev nD) :
    (V m c main_v0 : S262144x128.Idx → EReal)
      = shapeCast S262144x128 (m ((c : Thread nD τ).loc main_arg0)) shapeCasts_S256x128x32x32_S262144x128 := by
  dsimp only [V, V0]
  simp only [hostOps0, hostOps0_1, hostOps0_2, List.flatten_cons, List.flatten_nil, List.append_nil, List.cons_append,
    List.nil_append]
  after_results
  rfl

/-- The 16×16 identity as the program builds it: row number compared with column number, the bit converted. -/
abbrev eye16 : S16x16.Idx → EReal :=
  uitofp (F := Ideal) .f32 (cmpi .eq (addi (iotaInDim S16x16 32 0) (broadcastInDim S16x16 ![] bcast_S_S16x16 (constantI S_ 32 0#32)))
    (iotaInDim S16x16 32 1))

theorem v8_eq (c : Dev nD) :
    (V m c main_v8 : S128x128.Idx → EReal)
      = shapeCast S128x128 (mulf (F := Ideal) (φ := .f32)
          (broadcastInDim S16x8x16x8 ![0, 1, 2, 3] bcast_S16x1x16x1_S16x8x16x8_0_1_2_3
            (broadcastInDim S16x1x16x1 ![0, 2] bcast_S16x16_S16x1x16x1_0_2 eye16))
          (broadcastInDim S16x8x16x8 ![0, 1, 2, 3] bcast_S1x8x1x8_S16x8x16x8_0_1_2_3
            (broadcastInDim S1x8x1x8 ![1, 3] bcast_S8x8_S1x8x1x8_1_3
              (transpose S8x8 [1, 0] (m ((c : Thread nD τ).loc main_arg1)) transposes_S8x8_S8x8_1_0))))
          shapeCasts_S16x8x16x8_S128x128 := by
  dsimp only [V, V0]
  simp only [hostOps0, hostOps0_1, hostOps0_2, List.flatten_cons, List.flatten_nil, List.append_nil, List.cons_append,
    List.nil_append]
  after_results
  rfl

theorem v12_eq (c : Dev nD) :
    (V m c main_v12 : S1x128.Idx → EReal)
      = shapeCast S1x128 (shapeCast S128 (broadcastInDim S16x8 ![0, 1] bcast_S1x8_S16x8_0_1
          (shapeCast S1x8 (m ((c : Thread nD τ).loc main_arg2)) shapeCasts_S8_S1x8)) shapeCasts_S16x8_S128) shapeCasts_S128_S1x128 := by
  dsimp only [V, V0]
  simp only [hostOps0, hostOps0_1, hostOps0_2, List.flatten_cons, List.flatten_nil, List.append_nil, List.cons_append,
    List.nil_append]
  after_results
  rfl

/-! ## The layout steps, each read at an entry -/

/-- Rows of 128 over the flat input: entry (r, c) is the input at position 128·r + c. -/
theorem rows_apply (x : S256x128x32x32.Idx → EReal) (r : Fin 262144) (c : Fin 128) :
    shapeCast S262144x128 x shapeCasts_S256x128x32x32_S262144x128 (ix2 r c)
      = x (at4 (r.val * 128 + c.val) (by have := r.isLt; have := c.isLt; omega)) :=
  shapeCast_apply x _ (ix2 r c) _ (by rw [rowMajor_at4, Shape.rowMajor_val_two]; rfl)

/-- The identity's entry. -/
theorem eyeBit : ∀ a b : Fin 16,
    IntOp.cmpi .eq (IntOp.addi (BitVec.ofNat 32 a.val) 0#32) (BitVec.ofNat 32 b.val) = if a = b then 1#1 else 0#1 := by
  decide +kernel

theorem eye16_apply (a b : Fin 16) : eye16 (ix2 a b) = if a = b then (1 : EReal) else 0 := by
  show (((IntOp.cmpi .eq (IntOp.addi (BitVec.ofNat 32 a.val) 0#32) (BitVec.ofNat 32 b.val)).toNat : ℝ) : EReal) = _
  rw [eyeBit]
  split <;> simp

/-- A 16×8×16×8 array re-laid as 128×128: entry (p, l) is the array at (p / 8, p % 8, l / 8, l % 8). -/
theorem relay_apply {α : Type} (y : S16x8x16x8.Idx → α) (p l : Fin 128) :
    shapeCast S128x128 y shapeCasts_S16x8x16x8_S128x128 (ix2 p l)
      = y (ix4 (⟨p.val / 8, by have := p.isLt; omega⟩ : Fin 16) (⟨p.val % 8, by omega⟩ : Fin 8)
            (⟨l.val / 8, by have := l.isLt; omega⟩ : Fin 16) (⟨l.val % 8, by omega⟩ : Fin 8)) :=
  shapeCast_apply y _ (ix2 p l) _ (by
    rw [Shape.rowMajor_val_four, Shape.rowMajor_val_two]
    show ((p.val / 8 * 8 + p.val % 8) * 16 + l.val / 8) * 8 + l.val % 8 = p.val * 128 + l.val
    omega)

/-- The identity spread over the two group axes: entry (a, i, b, j) is the identity at (a, b). -/
theorem spreadEye_apply (e : S16x16.Idx → EReal) (a : Fin 16) (i : Fin 8) (b : Fin 16) (j : Fin 8) :
    broadcastInDim S16x8x16x8 ![0, 1, 2, 3] bcast_S16x1x16x1_S16x8x16x8_0_1_2_3
        (broadcastInDim S16x1x16x1 ![0, 2] bcast_S16x16_S16x1x16x1_0_2 e) (ix4 a i b j) = e (ix2 a b) := by
  rw [broadcastInDim_apply _ bcast_S16x1x16x1_S16x8x16x8_0_1_2_3 _ (ix4 a i b j) (ix4 a (0 : Fin 1) b (0 : Fin 1)) (fun ax => match ax with
    | ⟨0, _⟩ => by show a.val = if (16 : Nat) = 1 then 0 else a.val; rw [if_neg (by decide)]
    | ⟨1, _⟩ => by show 0 = if (1 : Nat) = 1 then 0 else i.val; rw [if_pos rfl]
    | ⟨2, _⟩ => by show b.val = if (16 : Nat) = 1 then 0 else b.val; rw [if_neg (by decide)]
    | ⟨3, _⟩ => by show 0 = if (1 : Nat) = 1 then 0 else j.val; rw [if_pos rfl])]
  exact broadcastInDim_apply _ bcast_S16x16_S16x1x16x1_0_2 e (ix4 a (0 : Fin 1) b (0 : Fin 1)) (ix2 a b) (fun ax => match ax with
    | ⟨0, _⟩ => by show a.val = if (16 : Nat) = 1 then 0 else a.val; rw [if_neg (by decide)]
    | ⟨1, _⟩ => by show b.val = if (16 : Nat) = 1 then 0 else b.val; rw [if_neg (by decide)])

/-- The 8×8 matrix spread over the two position axes: entry (a, i, b, j) is the matrix at (i, j). -/
theorem spreadW_apply (w : S8x8.Idx → EReal) (a : Fin 16) (i : Fin 8) (b : Fin 16) (j : Fin 8) :
    broadcastInDim S16x8x16x8 ![0, 1, 2, 3] bcast_S1x8x1x8_S16x8x16x8_0_1_2_3
        (broadcastInDim S1x8x1x8 ![1, 3] bcast_S8x8_S1x8x1x8_1_3 w) (ix4 a i b j) = w (ix2 i j) := by
  rw [broadcastInDim_apply _ bcast_S1x8x1x8_S16x8x16x8_0_1_2_3 _ (ix4 a i b j) (ix4 (0 : Fin 1) i (0 : Fin 1) j) (fun ax => match ax with
    | ⟨0, _⟩ => by show 0 = if (1 : Nat) = 1 then 0 else a.val; rw [if_pos rfl]
    | ⟨1, _⟩ => by show i.val = if (8 : Nat) = 1 then 0 else i.val; rw [if_neg (by decide)]
    | ⟨2, _⟩ => by show 0 = if (1 : Nat) = 1 then 0 else b.val; rw [if_pos rfl]
    | ⟨3, _⟩ => by show j.val = if (8 : Nat) = 1 then 0 else j.val; rw [if_neg (by decide)])]
  exact broadcastInDim_apply _ bcast_S8x8_S1x8x1x8_1_3 w (ix4 (0 : Fin 1) i (0 : Fin 1) j) (ix2 i j) (fun ax => match ax with
    | ⟨0, _⟩ => by show i.val = if (8 : Nat) = 1 then 0 else i.val; rw [if_neg (by decide)]
    | ⟨1, _⟩ => by show j.val = if (8 : Nat) = 1 then 0 else j.val; rw [if_neg (by decide)])

/-- The transposed weight: entry (i, j) is the weight at (j, i). -/
theorem transposeW_apply (w : S8x8.Idx → EReal) (i j : Fin 8) :
    transpose S8x8 [1, 0] w transposes_S8x8_S8x8_1_0 (ix2 i j) = w (ix2 j i) :=
  transpose_apply [1, 0] w transposes_S8x8_S8x8_1_0 (ix2 i j) (ix2 j i) (fun b => match b with
    | ⟨0, _⟩ => rfl
    | ⟨1, _⟩ => rfl)

/-- The tiled bias row: entry (0, l) is the bias at l % 8. -/
theorem tiled_apply (bias : S8.Idx → EReal) (l : Fin 128) :
    shapeCast S1x128 (shapeCast S128 (broadcastInDim S16x8 ![0, 1] bcast_S1x8_S16x8_0_1
        (shapeCast S1x8 bias shapeCasts_S8_S1x8)) shapeCasts_S16x8_S128) shapeCasts_S128_S1x128 (ix2 (0 : Fin 1) l)
      = bias (ix1 (⟨l.val % 8, Nat.mod_lt _ (by decide)⟩ : Fin 8)) := by
  rw [shapeCast_apply _ shapeCasts_S128_S1x128 (ix2 (0 : Fin 1) l) (ix1 l) (by
    rw [Shape.rowMajor_val_one, Shape.rowMajor_val_two]; show l.val = 0 * 128 + l.val; omega)]
  rw [shapeCast_apply _ shapeCasts_S16x8_S128 (ix1 l) (ix2 (⟨l.val / 8, by have := l.isLt; omega⟩ : Fin 16) (⟨l.val % 8, Nat.mod_lt _ (by decide)⟩ : Fin 8)) (by
    rw [Shape.rowMajor_val_one, Shape.rowMajor_val_two]; show l.val / 8 * 8 + l.val % 8 = l.val; omega)]
  rw [broadcastInDim_apply _ bcast_S1x8_S16x8_0_1 _ (ix2 (⟨l.val / 8, by have := l.isLt; omega⟩ : Fin 16) (⟨l.val % 8, Nat.mod_lt _ (by decide)⟩ : Fin 8))
    (ix2 (0 : Fin 1) (⟨l.val % 8, Nat.mod_lt _ (by decide)⟩ : Fin 8)) (fun ax => match ax with
    | ⟨0, _⟩ => by show 0 = if (1 : Nat) = 1 then 0 else l.val / 8; rw [if_pos rfl]
    | ⟨1, _⟩ => by show l.val % 8 = if (8 : Nat) = 1 then 0 else l.val % 8; rw [if_neg (by decide)])]
  exact shapeCast_apply bias shapeCasts_S8_S1x8 _ (ix1 (⟨l.val % 8, Nat.mod_lt _ (by decide)⟩ : Fin 8)) (by
    rw [Shape.rowMajor_val_one, Shape.rowMajor_val_two]; show l.val % 8 = 0 * 8 + l.val % 8; omega)

/-! ## The three operands read at an entry -/

theorem v0_apply (c : Dev nD) (r : Fin 262144) (k : Fin 128) :
    (V m c main_v0 : S262144x128.Idx → EReal) (ix2 r k)
      = (m ((c : Thread nD τ).loc main_arg0) : S256x128x32x32.Idx → EReal)
          (at4 (r.val * 128 + k.val) (by have := r.isLt; have := k.isLt; omega)) := by
  rw [v0_eq]; exact rows_apply _ r k

theorem v8_apply (c : Dev nD) (p l : Fin 128) :
    (V m c main_v8 : S128x128.Idx → EReal) (ix2 p l)
      = (if p.val / 8 = l.val / 8 then (1 : EReal) else 0)
          * (m ((c : Thread nD τ).loc main_arg1) : S8x8.Idx → EReal)
              (ix2 (⟨l.val % 8, Nat.mod_lt _ (by decide)⟩ : Fin 8) (⟨p.val % 8, Nat.mod_lt _ (by decide)⟩ : Fin 8)) := by
  rw [v8_eq, relay_apply, mulf_apply, spreadEye_apply, spreadW_apply, transposeW_apply, eye16_apply]
  congr 1
  exact if_congr (by rw [Fin.ext_iff]) rfl rfl

theorem v12_apply (c : Dev nD) (l : Fin 128) :
    (V m c main_v12 : S1x128.Idx → EReal) (ix2 (0 : Fin 1) l)
      = (m ((c : Thread nD τ).loc main_arg2) : S8.Idx → EReal) (ix1 (⟨l.val % 8, Nat.mod_lt _ (by decide)⟩ : Fin 8)) := by
  rw [v12_eq]; exact tiled_apply _ l

end Cert.KernelIdeal.HostPrefix

end
-- ==== Proof.BlockDiagonal.lean ====
/-
  The sum of a 128-term contraction against a block-diagonal matrix made of sixteen 8×8 blocks.

  A row of 128 entries is sixteen consecutive groups of 8. When the right-hand factor at lane c is the
  indicator "c lies in group b" times a weight, every lane outside group b contributes
  x · (0 · w) = 0 (on the extended reals 0 · w = 0 for every w, infinite or not, and x · 0 = 0 likewise),
  and inside group b the indicator is 1. So the 128-term sum is the 8-term sum over group b.
  No finiteness is needed: only that 0 annihilates and 1 is neutral for the product, and that the sum is
  commutative and associative.
-/
import Idealize.ShloMosaic.PureOps.Ideal.Laws

noncomputable section

open scoped BigOperators

namespace Cert.BlockDiagonal

/-- Lane `8·b + k` of a 128-lane row, for group `b < 16` and position `k < 8` inside the group. -/
def lane (b : Fin 16) (k : Fin 8) : Fin 128 :=
  ⟨8 * b.val + k.val, by have := b.isLt; have := k.isLt; omega⟩

theorem lane_val (b : Fin 16) (k : Fin 8) : (lane b k).val = 8 * b.val + k.val := rfl

/-- Σ_c x(c) · (e(c) · w(c)) over the 128 lanes, with `e` the indicator of group `b`, is the sum over the 8
    lanes of group `b` of x · w. -/
theorem sum_blockdiag (x e w : Fin 128 → EReal) (b : Fin 16)
    (he : ∀ c : Fin 128, e c = if c.val / 8 = b.val then 1 else 0) :
    ∑ c : Fin 128, x c * (e c * w c) = ∑ k : Fin 8, x (lane b k) * w (lane b k) := by
  rw [← Equiv.sum_comp (finProdFinEquiv (m := 16) (n := 8)), Fintype.sum_prod_type]
  have hv : ∀ (a : Fin 16) (k : Fin 8), (finProdFinEquiv (a, k) : Fin (16 * 8)).val = k.val + 8 * a.val :=
    fun _ _ => rfl
  rw [Finset.sum_eq_single b]
  · refine Finset.sum_congr rfl fun k _ => ?_
    have hc : (finProdFinEquiv (b, k) : Fin (16 * 8)) = lane b k :=
      Fin.ext (by rw [hv, lane_val]; omega)
    rw [hc, he, if_pos (by rw [lane_val]; have := k.isLt; omega), one_mul]
  · intro a _ hab
    refine Finset.sum_eq_zero fun k _ => ?_
    rw [he, if_neg, zero_mul, mul_zero]
    rw [hv]
    intro h
    apply hab
    apply Fin.ext
    have := k.isLt
    omega
  · intro h
    exact absurd (Finset.mem_univ b) h

end Cert.BlockDiagonal

end
-- ==== Proof.KernelValue.lean ====
/-
  The idealized kernel's result as one function of the arguments.

  Grid point t loads rows 16384·t … 16384·t + 16383 of the re-laid input, the whole 128×128 matrix and the whole
  bias row, and writes back those rows of (input rows)·(matrix) + (row). The sixteen points' blocks tile the
  262144×128 output, so after the run the output array is the whole product-plus-row. Its 128-term contraction
  against the block-diagonal matrix collapses to the 8 terms of the group the column lies in, and the final
  re-laying to 256×128×32×32 keeps flat positions: the result at flat position n is
  Σ_{k<8} x[8·(n/8) + k] · weight[n % 8, k] + bias[n % 8].
-/
import proofs.«166391_j15616501088522_1_alg».proof.Proof.Gen.KernelIdeal.Frame
import proofs.«166391_j15616501088522_1_alg».proof.Proof.Payload
import proofs.«166391_j15616501088522_1_alg».proof.Proof.HostPrefix
import proofs.«166391_j15616501088522_1_alg».proof.Proof.BlockDiagonal
import proofs.«166391_j15616501088522_1_alg».proof.Proof.FlatIndex
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.StableHlo
open Idealize.ShloMosaic.ValueIdx
open Idealize.ShloMosaic.Pipeline (Dat)

namespace Cert.KernelIdeal.KernelValue

open Cert.KernelIdeal Cert.KernelIdeal.Gen Cert.FlatIndex Cert.KernelIdeal.HostPrefix

variable (m : (ℓ : Loc nD τ sig) → Buf (Elt Ideal) ℓ) (ρ : Dev nD → PrngReg)

theorem hz : (![0, 0] : Fin 2 → Nat) = fun _ => 0 := funext fun a => by fin_cases a <;> rfl

/-! ## The product array -/

/-- Entry (a, b) of (rows)·(matrix) + (row). -/
def prodEntry (A : S262144x128.Idx → EReal) (M : S128x128.Idx → EReal) (r : S1x128.Idx → EReal)
    (a : Fin 262144) (b : Fin 128) : EReal :=
  (∑ k : Fin 128, A (ix2 a k) * M (ix2 k b)) + r (ix2 (0 : Fin 1) b)

/-- The whole 262144×128 array of those entries. -/
def prodArr (A : S262144x128.Idx → EReal) (M : S128x128.Idx → EReal) (r : S1x128.Idx → EReal) :
    S262144x128.Idx → EReal := fun i => prodEntry A M r (i 0) (i 1)

/-- The stored block of a point whose input block is rows T·16384 … of A, whose matrix is M and whose row is r,
    read at y, is the product array at (T·16384 + y₀, y₁). -/
theorem block_entry (x0 : Vec Ideal S16384x128 .f32) (x1 : Vec Ideal S128x128 .f32) (x2 : Vec Ideal S1x128 .f32)
    (A : S262144x128.Idx → EReal) (M : S128x128.Idx → EReal) (r : S1x128.Idx → EReal) (T : Nat) (hT : T < 16)
    (h0 : ∀ (a : Fin 16384) (k : Fin 128),
      x0 (ix2 a k) = A (ix2 (⟨T * 16384 + a.val, by have := a.isLt; omega⟩ : Fin 262144) k))
    (h1 : x1 = M) (h2 : x2 = r)
    (y : S16384x128.Idx) (i : S262144x128.Idx) (hi0 : (i 0).val = T * 16384 + (y 0).val) (hi1 : (i 1).val = (y 1).val) :
    k0_pay1 (F := Ideal) x0 x1 x2 y = prodArr A M r i := by
  obtain ⟨a, b, rfl⟩ : ∃ (a : Fin 16384) (b : Fin 128), y = ix2 a b := ⟨y 0, y 1, eq_ix2 y⟩
  rw [Cert.KernelIdeal.Payload.pay_apply]
  have hlt : T * 16384 + a.val < 262144 := by have := a.isLt; omega
  have e0 : i 0 = (⟨T * 16384 + a.val, hlt⟩ : Fin 262144) := Fin.ext hi0
  have e1 : i 1 = b := Fin.ext hi1
  unfold prodArr prodEntry
  rw [e0, e1, h1, h2]
  refine congrArg (· + r (ix2 (0 : Fin 1) b)) (Finset.sum_congr rfl fun k _ => ?_)
  exact congrArg (· * M (ix2 k b)) (h0 a k)

/-! ## The windows' blocks -/

/-- The printed index maps over the grid: the input and output blocks are block-row t, the matrix and the row
    stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks of a point, at their literal types. -/
abbrev xblk (c : Dev nD) (t : Fin cfg0.N) : Vec Ideal S16384x128 .f32 := iblk m c 0 t
abbrev mblk (c : Dev nD) (t : Fin cfg0.N) : Vec Ideal S128x128 .f32 := iblk m c 1 t
abbrev rblk (c : Dev nD) (t : Fin cfg0.N) : Vec Ideal S1x128 .f32 := iblk m c 2 t

theorem tN (t : Fin cfg0.N) : t.val < 16 := lt_of_lt_of_eq t.isLt (N_0 : cfg0.N = 16)

/-- Point t's input block is rows 16384·t … of the re-laid input. -/
theorem xblk_apply (c : Dev nD) (t : Fin cfg0.N) (a : Fin 16384) (k : Fin 128) :
    xblk m c t (ix2 a k)
      = (V m c main_v0 : S262144x128.Idx → EReal)
          (ix2 (⟨t.val * 16384 + a.val, by have := a.isLt; have := tN t; omega⟩ : Fin 262144) k) := by
  obtain ⟨e0, e1, -⟩ := idx_facts t
  show (V m c main_v0 : S262144x128.Idx → EReal) (((cfg0.win 0).blk t).view.emb (ix2 a k)) = _
  refine congrArg _ (funext fun ax => Fin.ext ?_)
  match ax with
  | ⟨0, _⟩ => show win0_0.index t (0 : Fin 2) * 16384 + 1 * a.val = t.val * 16384 + a.val; omega
  | ⟨1, _⟩ => show win0_0.index t (1 : Fin 2) * 128 + 1 * k.val = k.val; omega

/-- Every point's matrix block is the whole matrix. -/
theorem mblk_eq (c : Dev nD) (t : Fin cfg0.N) : mblk m c t = (V m c main_v8 : S128x128.Idx → EReal) := by
  obtain ⟨-, -, e0, e1, -⟩ := idx_facts t
  funext y
  show (V m c main_v8 : S128x128.Idx → EReal) (((cfg0.win 1).blk t).view.emb y) = _
  refine congrArg _ (funext fun ax => Fin.ext ?_)
  match ax with
  | ⟨0, _⟩ => show win0_1.index t (0 : Fin 2) * 128 + 1 * (y 0).val = (y 0).val; omega
  | ⟨1, _⟩ => show win0_1.index t (1 : Fin 2) * 128 + 1 * (y 1).val = (y 1).val; omega

/-- Every point's row block is the whole row. -/
theorem rblk_eq (c : Dev nD) (t : Fin cfg0.N) : rblk m c t = (V m c main_v12 : S1x128.Idx → EReal) := by
  obtain ⟨-, -, -, -, e0, e1, -⟩ := idx_facts t
  funext y
  show (V m c main_v12 : S1x128.Idx → EReal) (((cfg0.win 2).blk t).view.emb y) = _
  refine congrArg _ (funext fun ax => Fin.ext ?_)
  match ax with
  | ⟨0, _⟩ => show win0_2.index t (0 : Fin 2) * 1 + 1 * (y 0).val = (y 0).val; omega
  | ⟨1, _⟩ => show win0_2.index t (1 : Fin 2) * 128 + 1 * (y 1).val = (y 1).val; omega

/-! ## What a point writes back, the cover, the array after the run -/

/-- The output array after the run, as a function of the three operand arrays at the region's entry. -/
abbrev out13 (c : Dev nD) : S262144x128.Idx → EReal :=
  prodArr (V m c main_v0) (V m c main_v8) (V m c main_v12)

/-- Point t writes back block-row t of the product array. -/
theorem flushed_eq (c : Dev nD) (t : Fin cfg0.N) :
    (dats m 0 c).flushed 3 t = ((cfg0.win 3).blk t).view.read (Elt Ideal) (out13 m c) := by
  show (cfg0.win 3).cut (grid0.coords t) ((dats m 0 c).after 3 t) = _
  rw [after0_3]
  unfold out0_3
  rw [View.canon_unit_zero hz]
  simp only [View.ld_unit_zero (S := S16384x128) hz, View.ld_unit_zero (S := S128x128) hz, View.ld_unit_zero (S := S1x128) hz]
  obtain ⟨-, -, -, -, -, -, e0, e1⟩ := idx_facts t
  funext j
  show k0_pay1 (F := Ideal) (xblk m c t) (mblk m c t) (rblk m c t) j = out13 m c (((cfg0.win 3).blk t).view.emb j)
  refine block_entry (xblk m c t) (mblk m c t) (rblk m c t) (V m c main_v0) (V m c main_v8) (V m c main_v12) t.val (tN t)
    (xblk_apply m c t) (mblk_eq m c t) (rblk_eq m c t) j (((cfg0.win 3).blk t).view.emb j) ?_ ?_
  · show win0_3.index t (0 : Fin 2) * 16384 + 1 * (j 0).val = t.val * 16384 + (j 0).val; omega
  · show win0_3.index t (1 : Fin 2) * 128 + 1 * (j 1).val = (j 1).val; omega

/-- An index of the output array lies in point t's block iff each coordinate lies in the block's range. -/
theorem mem_blk (t : Fin cfg0.N) (i : S262144x128.Idx) :
    i ∈ ((cfg0.win 3).blk t).view.set ↔ ∀ a : Fin 2, win0_3.index t a * S16384x128.size a ≤ (i a).val ∧ (i a).val < win0_3.index t a * S16384x128.size a + S16384x128.size a := by
  show i ∈ ((View.whole main_v13).slice (win0_3.rect t)).set ↔ _
  rw [View.set_slice_whole, Rect.mem_set_unit]
  exact Iff.rfl

/-- Row r of the output lies in the block of point r / 16384. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  let t : Fin cfg0.N := ⟨(i 0).val / 16384, by rw [show cfg0.N = 16 from N_0]; omega⟩
  obtain ⟨-, -, -, -, -, -, e0, e1⟩ := idx_facts t
  have ht : t.val = (i 0).val / 16384 := rfl
  refine ⟨t, flush0_3 t, ?_⟩
  rw [mem_blk]
  intro a
  match a with
  | ⟨0, _⟩ => show win0_3.index t (0 : Fin 2) * 16384 ≤ (i 0).val ∧ (i 0).val < win0_3.index t (0 : Fin 2) * 16384 + 16384; omega
  | ⟨1, _⟩ => show win0_3.index t (1 : Fin 2) * 128 ≤ (i 1).val ∧ (i 1).val < win0_3.index t (1 : Fin 2) * 128 + 128; omega

/-- The output array after the run is the product array. -/
theorem final (c : Dev nD) : (dats m 0 c).arrAt 3 cfg0.N = out13 m c :=
  (dats m 0 c).arrAt_eq_of_cover 3 (out13 m c) (fun t _ => flushed_eq m c t) cover

/-! ## The product array in terms of the arguments -/

/-- The three arguments at their literal types. -/
abbrev xarg (c : Dev nD) : S256x128x32x32.Idx → EReal := m ((c : Thread nD τ).loc main_arg0)
abbrev warg (c : Dev nD) : S8x8.Idx → EReal := m ((c : Thread nD τ).loc main_arg1)
abbrev barg (c : Dev nD) : S8.Idx → EReal := m ((c : Thread nD τ).loc main_arg2)

/-- Entry (r, l) of the output: the 8 entries of input row r in the group of column l, against row l % 8 of the
    weight, plus bias l % 8. -/
theorem out13_apply (c : Dev nD) (r : Fin 262144) (l : Fin 128) :
    out13 m c (ix2 r l)
      = (∑ k : Fin 8, xarg m c
            (at4 (r.val * 128 + (8 * (l.val / 8) + k.val)) (by have := r.isLt; have := l.isLt; have := k.isLt; omega))
          * warg m c (ix2 (⟨l.val % 8, Nat.mod_lt _ (by decide)⟩ : Fin 8) k))
        + barg m c (ix1 (⟨l.val % 8, Nat.mod_lt _ (by decide)⟩ : Fin 8)) := by
  show prodEntry (V m c main_v0) (V m c main_v8) (V m c main_v12) r l = _
  unfold prodEntry
  rw [v12_apply]
  refine congrArg (· + _) ?_
  refine (Finset.sum_congr rfl fun k _ => congrArg₂ (fun (p q : EReal) => p * q) (v0_apply m c r k) (v8_apply m c k l)).trans ?_
  refine (Cert.BlockDiagonal.sum_blockdiag
    (fun k : Fin 128 => xarg m c (at4 (r.val * 128 + k.val) (by have := r.isLt; have := k.isLt; omega)))
    (fun k : Fin 128 => if k.val / 8 = l.val / 8 then (1 : EReal) else 0)
    (fun k : Fin 128 => warg m c
      (ix2 (⟨l.val % 8, Nat.mod_lt _ (by decide)⟩ : Fin 8) (⟨k.val % 8, Nat.mod_lt _ (by decide)⟩ : Fin 8)))
    (⟨l.val / 8, by have := l.isLt; omega⟩ : Fin 16) (fun _ => rfl)).trans ?_
  refine Finset.sum_congr rfl fun k _ => ?_
  have hk : (⟨(Cert.BlockDiagonal.lane (⟨l.val / 8, by have := l.isLt; omega⟩ : Fin 16) k).val % 8, Nat.mod_lt _ (by decide)⟩ : Fin 8) = k :=
    Fin.ext (by show (8 * (l.val / 8) + k.val) % 8 = k.val; have := k.isLt; omega)
  rw [hk]
  rfl

/-! ## The re-laid result and the run -/

/-- The program's result, the output array re-laid as 256×128×32×32, is `result` of the arguments. -/
theorem tail_eq (c : Dev nD) :
    Pipeline.afterTail₀ cfgs (dats m) 0 (V0 m) [hostOps1] c main_v14
      = result (m ((c : Thread nD τ).loc main_arg0)) (m ((c : Thread nD τ).loc main_arg1)) (m ((c : Thread nD τ).loc main_arg2)) := by
  unfold Pipeline.afterTail₀
  show StableHlo.after hostOps1 _ (Proc.devRef .tc main_v14) = _
  after_results
  rw [show Pipeline.withArrays (cfgs 0).spec c (V0 m c) (fun w => (dats m 0 c).arrAt w (cfgs 0).N) (Proc.devRef .tc main_v13) = out13 m c from
    (Pipeline.withArrays_arr spec0 launch0.win.arr_inj c _ _ 3).trans (final m c)]
  show (shapeCast S256x128x32x32 (out13 m c) shapeCasts_S262144x128_S256x128x32x32 : S256x128x32x32.Idx → EReal) = _
  funext i
  have hn := flat4_lt i
  rw [shapeCast_apply (out13 m c) shapeCasts_S262144x128_S256x128x32x32 i
    (ix2 (⟨flat4 i / 128, by omega⟩ : Fin 262144) (⟨flat4 i % 128, Nat.mod_lt _ (by decide)⟩ : Fin 128)) (by
      rw [Shape.rowMajor_val_two]
      show flat4 i / 128 * 128 + flat4 i % 128 = (S4.rowMajor i).val
      rw [rowMajor_eq_flat4]; omega)]
  rw [out13_apply]
  unfold result
  refine congrArg₂ (· + ·) (Finset.sum_congr rfl fun k _ => congrArg₂ (· * ·) (congrArg _ (at4_congr _ _ ?_)) (congrArg _ ?_)) (congrArg _ ?_)
  · show flat4 i / 128 * 128 + (8 * (flat4 i % 128 / 8) + k.val) = 8 * (flat4 i / 8) + k.val; omega
  · exact congrArg (fun a => ix2 a k) (Fin.ext (by show flat4 i % 128 % 8 = flat4 i % 8; omega))
  · exact congrArg ix1 (Fin.ext (by show flat4 i % 128 % 8 = flat4 i % 8; omega))

/-- Every weakly fair execution of the idealized kernel's program terminates with its result array at `result` of
    the arguments and the arguments unchanged. -/
theorem run : θ_run defs (onTc (τ := τ) (main (F := Ideal))) ⟨m, fun _ => 0, ρ⟩ fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference's result as the same function of the arguments.

  The reference re-lays x as 256×128×32×4×8, contracts the last axis against the weight's second axis, adds the
  bias along the last axis and re-lays back. Re-laying keeps flat positions, so at flat position n the last
  coordinate is n % 8 and the group's entries sit at positions 8·(n / 8) + k: the result is
  Σ_{k<8} x[8·(n/8) + k] · weight[n % 8, k] + bias[n % 8].
-/
import proofs.«166391_j15616501088522_1_alg».proof.Proof.Gen.ReferenceIdeal.Read
import proofs.«166391_j15616501088522_1_alg».proof.Proof.FlatIndex

noncomputable section

open scoped BigOperators
open Idealize.ShloMosaic Idealize.ShloMosaic.ValueIdx

namespace Cert.ReferenceIdeal.RefValue

open Cert.ReferenceIdeal Cert.ReferenceIdeal.Read Cert.FlatIndex

/-- The flat position of (b, c, h, j, k) with the last coordinate replaced: the group's start plus k. -/
theorem group_pos (n k : Nat) (hn : n < 33554432) (hk : k < 8) :
    ((((n / 131072) * 128 + n / 1024 % 128) * 32 + n / 32 % 32) * 4 + n / 8 % 4) * 8 + k = 8 * (n / 8) + k := by
  omega

/-- The reference's result is `result` of its arguments. -/
theorem ref_eq (x : S256x128x32x32.Idx → EReal) (w : S8x8.Idx → EReal) (b : S8.Idx → EReal) :
    val_main_v5 (F := Ideal) x w b = result x w b := by
  funext i
  have hn := flat4_lt i
  have e0 : ∀ k : Fin 8, idx_main_v0 (lidx_main_v1 (idx_main_v5 i) k) = at4 (8 * (flat4 i / 8) + k.val) (group_lt hn k) :=
    fun k => funext fun a => Fin.ext (by
      match a with
      | ⟨0, _⟩ =>
        show (((((flat4 i / 131072) * 128 + flat4 i / 1024 % 128) * 32 + flat4 i / 32 % 32) * 4 + flat4 i / 8 % 4) * 8 + k.val) / 131072
          = (8 * (flat4 i / 8) + k.val) / 131072
        rw [group_pos _ _ hn k.isLt]
      | ⟨1, _⟩ =>
        show (((((flat4 i / 131072) * 128 + flat4 i / 1024 % 128) * 32 + flat4 i / 32 % 32) * 4 + flat4 i / 8 % 4) * 8 + k.val) / 1024 % 128
          = (8 * (flat4 i / 8) + k.val) / 1024 % 128
        rw [group_pos _ _ hn k.isLt]
      | ⟨2, _⟩ =>
        show (((((flat4 i / 131072) * 128 + flat4 i / 1024 % 128) * 32 + flat4 i / 32 % 32) * 4 + flat4 i / 8 % 4) * 8 + k.val) / 32 % 32
          = (8 * (flat4 i / 8) + k.val) / 32 % 32
        rw [group_pos _ _ hn k.isLt]
      | ⟨3, _⟩ =>
        show (((((flat4 i / 131072) * 128 + flat4 i / 1024 % 128) * 32 + flat4 i / 32 % 32) * 4 + flat4 i / 8 % 4) * 8 + k.val) % 32
          = (8 * (flat4 i / 8) + k.val) % 32
        rw [group_pos _ _ hn k.isLt])
  have e1 : ∀ k : Fin 8, ridx_main_v1 (idx_main_v5 i) k = ix2 (⟨flat4 i % 8, Nat.mod_lt _ (by decide)⟩ : Fin 8) k :=
    fun k => funext fun a => Fin.ext (by
      match a with
      | ⟨0, _⟩ => rfl
      | ⟨1, _⟩ => rfl)
  have e2 : idx_main_v2 (idx_main_v3 (idx_main_v5 i)) = ix1 (⟨flat4 i % 8, Nat.mod_lt _ (by decide)⟩ : Fin 8) :=
    funext fun a => Fin.ext (by
      match a with
      | ⟨0, _⟩ => rfl)
  rw [val_main_v5_apply, val_main_v4_apply]
  show val_main_v1 (F := Ideal) x w (idx_main_v5 i) + val_main_v3 (F := Ideal) b (idx_main_v5 i) = _
  rw [val_main_v1_apply, val_main_v3_apply, val_main_v2_apply, e2]
  unfold result
  refine congrArg (· + _) (Finset.sum_congr rfl fun k _ => ?_)
  rw [val_main_v0_apply, e0 k, e1 k]

end Cert.ReferenceIdeal.RefValue

end
-- ==== Proof.lean ====
/-
  The five claims for the grouped 8×8 linear transform.

  The kernel re-lays x[256,128,32,32] as 262144 rows of 128 lanes (sixteen groups of 8 per row), multiplies each
  row block by a 128×128 block-diagonal matrix holding sixteen copies of the transposed 8×8 weight, and adds the
  bias tiled sixteen times; the reference re-lays x as …×4×8 and contracts the last axis with the weight directly.
  On the extended reals the off-diagonal zeros of the big matrix annihilate their terms (0 · w = 0 and x · 0 = 0
  hold for infinite entries too), so each 128-term sum is the 8-term sum of its own group, and both programs
  return, at flat position n, Σ_{k<8} x[8·(n/8) + k] · weight[n % 8, k] + bias[n % 8]. No finiteness of the
  inputs is used.

  The frames of the two kernel programs are the generated ones; the reference's frame is its generated run with
  the result dropped; the idealization rewrote nothing, so that claim is `True`.
-/
import proofs.«166391_j15616501088522_1_alg».proof.Defs
import proofs.«166391_j15616501088522_1_alg».proof.Proof.Gen.Kernel
import proofs.«166391_j15616501088522_1_alg».proof.Proof.Gen.Kernel.Skeleton
import proofs.«166391_j15616501088522_1_alg».proof.Proof.Gen.Kernel.Launch
import proofs.«166391_j15616501088522_1_alg».proof.Proof.Gen.Kernel.Points
import proofs.«166391_j15616501088522_1_alg».proof.Proof.Gen.Kernel.Frame
import proofs.«166391_j15616501088522_1_alg».proof.Proof.Gen.KernelIdeal
import proofs.«166391_j15616501088522_1_alg».proof.Proof.Gen.KernelIdeal.Skeleton
import proofs.«166391_j15616501088522_1_alg».proof.Proof.Gen.KernelIdeal.Launch
import proofs.«166391_j15616501088522_1_alg».proof.Proof.Gen.KernelIdeal.Points
import proofs.«166391_j15616501088522_1_alg».proof.Proof.Gen.KernelIdeal.Frame
import proofs.«166391_j15616501088522_1_alg».proof.Proof.Gen.ReferenceIdeal
import proofs.«166391_j15616501088522_1_alg».proof.Proof.Gen.Pre_finite_inputs
import proofs.«166391_j15616501088522_1_alg».proof.Proof.Gen.ReferenceIdeal.Run
import proofs.«166391_j15616501088522_1_alg».proof.Proof.Gen.ReferenceIdeal.Read
import proofs.«166391_j15616501088522_1_alg».proof.Proof.KernelValue
import proofs.«166391_j15616501088522_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the same array: `result` of arguments that agree. -/
theorem algebraic : Cert.algebraic_KernelIdeal_ReferenceIdeal := by
  intro m ρ m' ρ' _ hagree
  refine ⟨fun c => Cert.FlatIndex.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
